-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x512x512 : Shape := ⟨3, ![8, 512, 512]⟩
abbrev S8x512 : Shape := ⟨2, ![8, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S8x4096x512 .f32) (main_arg1 : FVec F S8x512x512 .f32) (main_arg2 : FVec F S8x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S8x4096x512 : Shape := ⟨3, ![8, 4096, 512]⟩
abbrev S8x512x512 : Shape := ⟨3, ![8, 512, 512]⟩
abbrev S8x512 : Shape := ⟨2, ![8, 512]⟩
abbrev S8x1x512 : Shape := ⟨3, ![8, 1, 512]⟩
abbrev S1x2048x512 : Shape := ⟨3, ![1, 2048, 512]⟩
abbrev S1x512x512 : Shape := ⟨3, ![1, 512, 512]⟩
abbrev S1x1x512 : Shape := ⟨3, ![1, 1, 512]⟩
abbrev S2048x512 : Shape := ⟨2, ![2048, 512]⟩
abbrev S512x512 : Shape := ⟨2, ![512, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S8x512x512, .f32⟩
  | .hbm, ⟨2, _⟩ => ⟨S8x512, .f32⟩
  | .hbm, ⟨3, _⟩ => ⟨S8x1x512, .f32⟩
  | .hbm, ⟨4, _⟩ => ⟨S8x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8x512_S8x1x512_0_2 : S8x512.BroadcastsInDim S8x1x512 (![0, 2] : Fin 2 → Fin S8x1x512.rank)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  shapeCasts_S2048x512_S1x2048x512 : S2048x512.ShapeCasts S1x2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x4096x512.size a
  hwx0_0 : ∀ i : grid0.Coords, EltTy.bits .f32 = 32 ∨ (Rect.block (s := S8x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x4096x512.size a
  hwx0_3 : ∀ i : grid0.Coords, EltTy.bits .f32 = 32 ∨ (Rect.block (s := S8x4096x512) S1x2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x512x512 : Shape := ⟨3, ![8, 512, 512]⟩
abbrev S8x512 : Shape := ⟨2, ![8, 512]⟩
abbrev S8x1x512 : Shape := ⟨3, ![8, 1, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x512x512, .f32⟩
  | .hbm, ⟨2, _⟩ => ⟨S8x512, .f32⟩
  | .hbm, ⟨3, _⟩ => ⟨S8x4096x512, .f32⟩
  | .hbm, ⟨4, _⟩ => ⟨S8x1x512, .f32⟩
  | .hbm, ⟨5, _⟩ => ⟨S8x4096x512, .f32⟩
  | .hbm, ⟨6, _⟩ => ⟨S8x4096x512, .f32⟩
  | .hbm, ⟨7, _⟩ => ⟨S_, .f32⟩
  | .hbm, ⟨8, _⟩ => ⟨S8x4096x512, .f32⟩
  | .hbm, ⟨9, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S8x512_S8x1x512_0_2 : S8x512.BroadcastsInDim S8x1x512 (![0, 2] : Fin 2 → Fin S8x1x512.rank)
  bcast_S8x1x512_S8x4096x512_0_1_2 : S8x1x512.BroadcastsInDim S8x4096x512 (![0, 1, 2] : Fin 3 → Fin S8x4096x512.rank)
  bcast_S_S8x4096x512 : S_.BroadcastsInDim S8x4096x512 (![] : Fin 0 → Fin S8x4096x512.rank)
  dot_S8x4096x512_S8x512x512_S8x4096x512_2_1_1_2_0_0_wf : DotDims.WF S8x4096x512 S8x512x512 S8x4096x512 [2] [1] [1] [2] [0] [0]

variable [Facts₀]

def dot_S8x4096x512_S8x512x512_S8x4096x512_2_1_1_2_0_0 : DotDims S8x4096x512 S8x512x512 S8x4096x512 where
  lhsContracting := [2]
  rhsContracting := [1]
  lhsNonContracting := [1]
  rhsNonContracting := [2]
  lhsBatch := [0]
  rhsBatch := [0]
  wf := dot_S8x4096x512_S8x512x512_S8x4096x512_2_1_1_2_0_0_wf

class Facts : Prop extends Facts₀ where

variable [Facts]
-- ==== Proof.BlockEntry.lean ====
/-
  One entry of what the kernel body stores, as a function of the three blocks it loads.

  The body loads a block of rows `[1, 2048, 512]`, the group's matrix `[1, 512, 512]` and the group's
  bias `[1, 1, 512]`; drops the leading unit axes; narrows rows and matrix to bf16 (the identity on the
  extended reals); multiplies them into a zero accumulator; adds the bias broadcast over the rows; takes the
  maximum with zero; and puts the unit axis back. So at row `r` and output feature `o` the stored value is

      max (Σ_{k < 512} rows (0, r, k) · mat (0, k, o) + bias (0, 0, o)) 0 .

  Each step that moves indices is read by its own lemma below; the product's contraction index, a
  one-axis index, is renamed to `Fin 512`.
-/
import proofs.«169411_j69140383531521_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockEntry

open Cert.KernelIdeal Cert.KernelIdeal.Gen
open Idealize.ShloMosaic Idealize.ShloMosaic.ValueIdx

/-! ## The operand indices of the product -/

/-- The left operand's row is the result's row. -/
theorem lhs_row (j : S2048x512.Idx) (q : dot_S2048x512_S512x512_S2048x512_1_0_0_1_n_n.contr.Idx) :
    (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column is the contracted feature. -/
theorem lhs_col (j : S2048x512.Idx) (q : dot_S2048x512_S512x512_S2048x512_1_0_0_1_n_n.contr.Idx) :
    (dot_S2048x512_S512x512_S2048x512_1_0_0_1_n_n.lhsIdx j q 1).val = (q ⟨0, by decide⟩).val :=
  dot_S2048x512_S512x512_S2048x512_1_0_0_1_n_n.lhsIdx_val_of_single rfl j q
/-- The right operand's row is the contracted feature. -/
theorem rhs_row (j : S2048x512.Idx) (q : dot_S2048x512_S512x512_S2048x512_1_0_0_1_n_n.contr.Idx) :
    (dot_S2048x512_S512x512_S2048x512_1_0_0_1_n_n.rhsIdx j q 0).val = (q ⟨0, by decide⟩).val :=
  dot_S2048x512_S512x512_S2048x512_1_0_0_1_n_n.rhsIdx_val_of_single rfl j q
/-- The right operand's column is the result's column. -/
theorem rhs_col (j : S2048x512.Idx) (q : dot_S2048x512_S512x512_S2048x512_1_0_0_1_n_n.contr.Idx) :
    (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product into a zero accumulator, at row `r` and column `o`: the row of the left operand against the
    column of the right one. -/
theorem product_apply (a : FVec Ideal S2048x512 .bf16) (b : FVec Ideal S512x512 .bf16) (r : Fin 2048) (o : Fin 512) :
    matmul (F := Ideal) dot_S2048x512_S512x512_S2048x512_1_0_0_1_n_n none a b (constant S2048x512 .f32 0x00000000#32) (ix2 r o)
      = ∑ k : Fin 512, a (ix2 r k) * b (ix2 k o) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r o) ((contrEquiv1 dot_S2048x512_S512x512_S2048x512_1_0_0_1_n_n 512 rfl rfl).symm k) = ix2 r k := funext fun a => Fin.ext (by
    match a with
    | ⟨0, _⟩ => exact lhs_row _ _
    | ⟨1, _⟩ => exact (lhs_col _ _).trans hk)
  have er : dot_S2048x512_S512x512_S2048x512_1_0_0_1_n_n.rhsIdx (ix2 r o) ((contrEquiv1 dot_S2048x512_S512x512_S2048x512_1_0_0_1_n_n 512 rfl rfl).symm k) = ix2 k o := funext fun a => Fin.ext (by
    match a with
    | ⟨0, _⟩ => exact (rhs_row _ _).trans hk
    | ⟨1, _⟩ => exact rhs_col _ _)
  rw [el, er]

/-! ## The unit axes -/

/-- The result with its unit axis put back, read at `(u, r, o)`, is the result at `(r, o)`. -/
theorem unit_added (v : FVec Ideal S2048x512 .f32) (u : Fin 1) (r : Fin 2048) (o : Fin 512) :
    shapeCast S1x2048x512 v shapeCasts_S2048x512_S1x2048x512 (ix3 u r o) = v (ix2 r o) :=
  (shapeCast_addUnit_apply ![2048, 512] v shapeCasts_S2048x512_S1x2048x512 (ix3 u r o)).trans
    (congrArg v (funext fun a => by match a with | ⟨0, _⟩ => rfl | ⟨1, _⟩ => rfl))

/-- The block of rows without its unit axis, read at `(r, k)`, is the block at `(0, r, k)`. -/
theorem rows_apply (x : Vec Ideal S1x2048x512 .f32) (r : Fin 2048) (k : Fin 512) :
    shapeCast S2048x512 x shapeCasts_S1x2048x512_S2048x512 (ix2 r k) = x (ix3 0 r k) :=
  (shapeCast_dropUnit_apply ![2048, 512] x shapeCasts_S1x2048x512_S2048x512 (ix2 r k)).trans
    (congrArg x (funext fun a => by match a with | ⟨0, _⟩ => rfl | ⟨1, _⟩ => rfl | ⟨2, _⟩ => rfl))

/-- The matrix without its unit axis, read at `(k, o)`, is the block at `(0, k, o)`. -/
theorem mat_apply (x : Vec Ideal S1x512x512 .f32) (k : Fin 512) (o : Fin 512) :
    shapeCast S512x512 x shapeCasts_S1x512x512_S512x512 (ix2 k o) = x (ix3 0 k o) :=
  (shapeCast_dropUnit_apply ![512, 512] x shapeCasts_S1x512x512_S512x512 (ix2 k o)).trans
    (congrArg x (funext fun a => by match a with | ⟨0, _⟩ => rfl | ⟨1, _⟩ => rfl | ⟨2, _⟩ => rfl))

/-- The bias without its first unit axis, broadcast over the rows, read at `(r, o)`: the bias at `(0, 0, o)`,
    whatever the row. -/
theorem bias_apply (x : Vec Ideal S1x1x512 .f32) (r : Fin 2048) (o : Fin 512) :
    broadcastTo S2048x512 (shapeCast S1x512 x shapeCasts_S1x1x512_S1x512) broadcasts_S1x512_S2048x512 (ix2 r o) = x (ix3 0 0 o) :=
  (broadcastTo_apply (shapeCast S1x512 x shapeCasts_S1x1x512_S1x512) broadcasts_S1x512_S2048x512 (ix2 r o) (ix2 0 o) (fun a => by
    match a with
    | ⟨0, _⟩ => show 0 = if (1 : Nat) = 1 then 0 else _; rw [if_pos rfl]
    | ⟨1, _⟩ => show o.val = if (512 : Nat) = 1 then 0 else o.val; rw [if_neg (by decide)])).trans
  ((shapeCast_dropUnit_apply ![1, 512] x shapeCasts_S1x1x512_S1x512 (ix2 0 o)).trans
    (congrArg x (funext fun a => by match a with | ⟨0, _⟩ => rfl | ⟨1, _⟩ => rfl | ⟨2, _⟩ => rfl)))

/-! ## The stored value -/

/-- What the body stores at `(u, r, o)` of its output block, from the blocks it loaded. -/
theorem stored_apply (rows : Vec Ideal S1x2048x512 .f32) (mat : Vec Ideal S1x512x512 .f32) (bias : Vec Ideal S1x1x512 .f32)
    (u : Fin 1) (r : Fin 2048) (o : Fin 512) :
    k0_pay1 (F := Ideal) rows mat bias (ix3 u r o)
      = max ((∑ k : Fin 512, rows (ix3 0 r k) * mat (ix3 0 k o)) + bias (ix3 0 0 o)) (Ideal.ofBits .f32 0x00000000#32) := by
  unfold k0_pay1
  rw [unit_added, maximumf_apply, addf_apply, product_apply, bias_apply]
  refine congrArg₂ max (congrArg (· + bias (ix3 0 0 o)) (Finset.sum_congr rfl fun k _ => ?_)) rfl
  exact congrArg₂ (· * ·) (rows_apply rows r k) (mat_apply mat k o)

end Cert.KernelIdeal.BlockEntry

end
-- ==== Proof.Layer.lean ====
/-
  The function both programs compute, over the extended reals: a batch of eight affine layers with a
  rectifier. For a group `g` (of 8), a row `r` (of 4096) and an output feature `o` (of 512),

      layer x w b (g, r, o) = max (Σ_{k < 512} x (g, r, k) · w (g, k, o) + b (g, o)) 0 .

  The zero is kept as the f32 word `0x00000000` read at the ideal instance: both programs spell the same
  word, so it is never evaluated. The sum is a `Finset` sum in the extended reals' commutative monoid, so
  no order of summation is fixed and nothing here needs the inputs to be finite.
-/
import Idealize.ShloMosaic.PureOps.Ideal
import Idealize.ShloMosaic.Lib.ValueIdx

noncomputable section

open scoped BigOperators

namespace Cert.AffineRelu

open Idealize.ShloMosaic Idealize.ShloMosaic.ValueIdx

/-- The inputs' array shape: 8 groups of 4096 rows of 512 features; also the result's. -/
abbrev Rows : Shape := ⟨3, ![8, 4096, 512]⟩
/-- The weights' array shape: per group a 512 × 512 matrix, input feature then output feature. -/
abbrev Mats : Shape := ⟨3, ![8, 512, 512]⟩
/-- The biases' array shape: per group one value per output feature. -/
abbrev Offs : Shape := ⟨2, ![8, 512]⟩

/-- One entry of the pre-activation: the row of `x` against the column of the group's matrix, plus the
    group's bias at the output feature. -/
def affine (x : Rows.Idx → EReal) (w : Mats.Idx → EReal) (b : Offs.Idx → EReal) (g : Fin 8) (r : Fin 4096) (o : Fin 512) : EReal :=
  (∑ k : Fin 512, x (ix3 g r k) * w (ix3 g k o)) + b (ix2 g o)

/-- The layer's result, index by index: the pre-activation clipped below at zero. -/
def layer (x : Rows.Idx → EReal) (w : Mats.Idx → EReal) (b : Offs.Idx → EReal) : Rows.Idx → EReal :=
  fun i => max (affine x w b (i 0) (i 1) (i 2)) (Ideal.ofBits .f32 0x00000000#32)

theorem layer_apply (x : Rows.Idx → EReal) (w : Mats.Idx → EReal) (b : Offs.Idx → EReal) (g : Fin 8) (r : Fin 4096) (o : Fin 512) :
    layer x w b (ix3 g r o) = max (affine x w b g r o) (Ideal.ofBits .f32 0x00000000#32) := rfl

end Cert.AffineRelu

end
-- ==== Proof.BlockIsLayer.lean ====
/-
  A stored entry is the layer's entry.

  Suppose the three loaded blocks sit in their arrays where the output block `(g, h)` says: the rows block
  is rows `h · 2048 …` of group `g` of `X`, the matrix block is group `g` of `W`, the bias block is
  group `g` of `B`. Then what the body stores at `(u, r, o)` is the layer of `X`, `W`, `B` at
  `(g, h · 2048 + r, o)`. Stated over plain vectors and coordinates, so that it can be used at any grid
  point once the blocks' positions are known there.
-/
import proofs.«169411_j69140383531521_1_alg».proof.Proof.BlockEntry
import proofs.«169411_j69140383531521_1_alg».proof.Proof.Layer

noncomputable section

open scoped BigOperators

namespace Cert.KernelIdeal.BlockEntry

open Cert.KernelIdeal Cert.KernelIdeal.Gen
open Idealize.ShloMosaic Idealize.ShloMosaic.ValueIdx Cert.AffineRelu

/-- Row `r` of the second-axis block `h` (of 2) is row `h · 2048 + r` of the array. -/
def rowOf (h : Fin 2) (r : Fin 2048) : Fin 4096 := ⟨h.val * 2048 + r.val, by have := h.isLt; have := r.isLt; omega⟩

theorem stored_eq_layer (X : Rows.Idx → EReal) (W : Mats.Idx → EReal) (B : Offs.Idx → EReal)
    (rows : Vec Ideal S1x2048x512 .f32) (mat : Vec Ideal S1x512x512 .f32) (bias : Vec Ideal S1x1x512 .f32)
    (g : Fin 8) (h : Fin 2)
    (hrows : ∀ (r : Fin 2048) (k : Fin 512), rows (ix3 0 r k) = X (ix3 g (rowOf h r) k))
    (hmat : ∀ (k o : Fin 512), mat (ix3 0 k o) = W (ix3 g k o))
    (hbias : ∀ o : Fin 512, bias (ix3 0 0 o) = B (ix2 g o))
    (j : S1x2048x512.Idx) (i : Rows.Idx)
    (hi0 : (i 0).val = g.val) (hi1 : (i 1).val = h.val * 2048 + (j 1).val) (hi2 : (i 2).val = (j 2).val) :
    k0_pay1 (F := Ideal) rows mat bias j = layer X W B i := by
  obtain ⟨u, r, o, rfl⟩ : ∃ (u : Fin 1) (r : Fin 2048) (o : Fin 512), j = ix3 u r o := ⟨j 0, j 1, j 2, eq_ix3 j⟩
  have hi : i = ix3 g (rowOf h r) o := funext fun a => Fin.ext (by
    match a with
    | ⟨0, _⟩ => exact hi0
    | ⟨1, _⟩ => exact hi1
    | ⟨2, _⟩ => exact hi2)
  subst hi
  rw [stored_apply, layer_apply]
  unfold affine
  simp only [hrows, hmat, hbias]

end Cert.KernelIdeal.BlockEntry

end
-- ==== Proof.WholeArray.lean ====
/-
  The kernel's result array after the run is the layer of its three argument arrays.

  The grid has 8 × 2 points. Point `t`, with output block index `(g, h, 0)`, stages rows
  `h · 2048 … h · 2048 + 2047` of group `g` of the inputs, the whole matrix of group `g`, and group
  `g` of the bias (the bias as the program broadcasts it to `[8, 1, 512]` before the launch), and writes
  back rows `h · 2048 …` of group `g` of the result. Every entry of what it writes back is the layer's
  entry there; the 16 blocks cover the result array (row `r` of group `g` lies in block
  `(g, r / 2048)`); so the array is the layer.
-/
import proofs.«169411_j69140383531521_1_alg».proof.Proof.Gen.KernelIdeal.Value
import proofs.«169411_j69140383531521_1_alg».proof.Proof.BlockIsLayer
import Idealize.ShloMosaic.Lib.StableHlo.Run

set_option maxRecDepth 16384

noncomputable section

open scoped BigOperators

namespace Cert.KernelIdeal.WholeArray

open Cert.KernelIdeal Cert.KernelIdeal.Gen Cert.KernelIdeal.BlockEntry
open Idealize.ShloMosaic Idealize.ShloMosaic.TcCoe Idealize.SL.Sem Idealize.ShloMosaic.ValueIdx Cert.AffineRelu
open Idealize.ShloMosaic.Pipeline (Dat)

variable (m : (ℓ : Loc nD τ sig) → Buf (Elt Ideal) ℓ) (ρ : Dev nD → PrngReg)

/-- The body's accesses start at the origin of their buffers. -/
theorem origin : (![0, 0, 0] : Fin 3 → Nat) = fun _ => 0 := funext fun a => by fin_cases a <;> rfl

/-! ## Where the blocks sit -/

/-- Decided over the 16 points: the rows block moves with the output block; the matrix and the bias follow
    its group only; the output's block indices range over 8 × 2 × 1. -/
theorem block_positions : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 1 ∧ win0_3.index t (2 : Fin 3) = 0 :=
  (by decide +kernel : ∀ t : Fin grid0.N, _)

/-- Every output block `(g, h, 0)` is some point's. -/
theorem block_reached : ∀ (g : Fin 8) (h : Fin 2), ∃ t : Fin cfg0.N, win0_3.index t = ![g.val, h.val, 0] :=
  (by decide +kernel : ∀ (g : Fin 8) (h : Fin 2), ∃ t : Fin grid0.N, win0_3.index t = ![g.val, h.val, 0])

/-! ## The bias as the launch finds it -/

/-- Before the launch the program broadcasts the bias `[8, 512]` to `[8, 1, 512]`. -/
theorem bias_array (c : Dev nD) :
    (V m c main_v0 : S8x1x512.Idx → EReal) = broadcastInDim S8x1x512 ![0, 2] bcast_S8x512_S8x1x512_0_2 (m ((c : Thread nD τ).loc main_arg2)) := by
  dsimp only [V, hostOps0]; after_results

/-- Read at `(g, 0, o)` it is the bias at `(g, o)`. -/
theorem bias_array_apply (c : Dev nD) (g : Fin 8) (o : Fin 512) :
    (V m c main_v0 : S8x1x512.Idx → EReal) (ix3 g 0 o) = m ((c : Thread nD τ).loc main_arg2) (ix2 g o) :=
  (congrFun (bias_array m c) (ix3 g 0 o)).trans
    (broadcastInDim_apply _ bcast_S8x512_S8x1x512_0_2 _ (ix3 g 0 o) (ix2 g o) (fun a => by
      match a with
      | ⟨0, _⟩ => show g.val = if (8 : Nat) = 1 then 0 else g.val; rw [if_neg (by decide)]
      | ⟨1, _⟩ => show o.val = if (512 : Nat) = 1 then 0 else o.val; rw [if_neg (by decide)]))

/-! ## What a point writes back -/

/-- Point `t` writes back block `t` of the layer of the arrays as the launch finds them. -/
theorem flushed_eq (c : Dev nD) (t : Fin cfg0.N) :
    (dats m 0 c).flushed 3 t = ((cfg0.win 3).blk t).view.read (Elt Ideal)
      (layer (V m c main_arg0) (V m c main_arg1) (m ((c : Thread nD τ).loc main_arg2))) := by
  show (cfg0.win 3).cut (grid0.coords t) ((dats m 0 c).after 3 t) = _
  rw [after0_3]
  unfold out0_3
  rw [View.canon_unit_zero origin]
  simp only [View.ld_unit_zero (S := S1x2048x512) origin, View.ld_unit_zero (S := S1x512x512) origin, View.ld_unit_zero (S := S1x1x512) origin]
  obtain ⟨a0, a1, a2, b0, b1, b2, c0, c1, c2, d0, d1, d2⟩ := block_positions t
  funext j
  show k0_pay1 (F := Ideal) (iblk m c 0 t) (iblk m c 1 t) (iblk m c 2 t) j
    = layer (V m c main_arg0) (V m c main_arg1) (m ((c : Thread nD τ).loc main_arg2)) (((cfg0.win 3).blk t).view.emb j)
  have hj0 : (j 0).val < 1 := (j 0).isLt
  refine stored_eq_layer (V m c main_arg0) (V m c main_arg1) (m ((c : Thread nD τ).loc main_arg2))
    (iblk m c 0 t) (iblk m c 1 t) (iblk m c 2 t)
    ⟨win0_3.index t (0 : Fin 3), by omega⟩ ⟨win0_3.index t (1 : Fin 3), by omega⟩ ?_ ?_ ?_ j (((cfg0.win 3).blk t).view.emb j) ?_ ?_ ?_
  · intro r k
    show V m c main_arg0 (((cfg0.win 0).blk t).view.emb (ix3 0 r k)) = V m c main_arg0 _
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 2048 + 1 * r.val = win0_3.index t (1 : Fin 3) * 2048 + r.val; omega
    | ⟨2, _⟩ => show win0_0.index t (2 : Fin 3) * 512 + 1 * k.val = k.val; omega
  · intro k o
    show V m c main_arg1 (((cfg0.win 1).blk t).view.emb (ix3 0 k o)) = V m c main_arg1 _
    refine congrArg (V m c main_arg1) (funext fun a => Fin.ext ?_)
    match a with
    | ⟨0, _⟩ => show win0_1.index t (0 : Fin 3) * 1 + 1 * 0 = win0_3.index t (0 : Fin 3); omega
    | ⟨1, _⟩ => show win0_1.index t (1 : Fin 3) * 512 + 1 * k.val = k.val; omega
    | ⟨2, _⟩ => show win0_1.index t (2 : Fin 3) * 512 + 1 * o.val = o.val; omega
  · intro o
    show V m c main_v0 (((cfg0.win 2).blk t).view.emb (ix3 0 0 o)) = _
    refine (congrArg (V m c main_v0) (funext fun a => Fin.ext ?_)).trans
      (bias_array_apply m c ⟨win0_3.index t (0 : Fin 3), by omega⟩ o)
    match a with
    | ⟨0, _⟩ => show win0_2.index t (0 : Fin 3) * 1 + 1 * 0 = win0_3.index t (0 : Fin 3); omega
    | ⟨1, _⟩ => show win0_2.index t (1 : Fin 3) * 1 + 1 * 0 = 0; omega
    | ⟨2, _⟩ => show win0_2.index t (2 : Fin 3) * 512 + 1 * o.val = o.val; omega
  · show win0_3.index t (0 : Fin 3) * 1 + 1 * (j 0).val = win0_3.index t (0 : Fin 3); omega
  · show win0_3.index t (1 : Fin 3) * 2048 + 1 * (j 1).val = win0_3.index t (1 : Fin 3) * 2048 + (j 1).val; omega
  · show win0_3.index t (2 : Fin 3) * 512 + 1 * (j 2).val = (j 2).val; omega

/-! ## The blocks cover the array -/

/-- An index of the result array is in point `t`'s block iff each coordinate is in the block's range. -/
theorem mem_blk (t : Fin cfg0.N) (i : S8x4096x512.Idx) :
    i ∈ ((cfg0.win 3).blk t).view.set ↔ ∀ a : Fin 3, win0_3.index t a * S1x2048x512.size a ≤ (i a).val ∧ (i a).val < win0_3.index t a * S1x2048x512.size a + S1x2048x512.size a := by
  show i ∈ ((View.whole main_v1).slice (win0_3.rect t)).set ↔ _
  rw [View.set_slice_whole, Rect.mem_set_unit]
  exact Iff.rfl

/-- Row `r` of group `g` lies in the block of the point whose output block index is `(g, r / 2048, 0)`. -/
theorem covered (i : S8x4096x512.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 512 := (i 2).isLt
  obtain ⟨t, ht⟩ := block_reached ⟨(i 0).val, h0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-! ## The array, and the run -/

/-- After the run the result array is the layer of the argument arrays as launched. -/
theorem result_array (c : Dev nD) :
    (dats m 0 c).arrAt 3 cfg0.N
      = layer (m ((c : Thread nD τ).loc main_arg0)) (m ((c : Thread nD τ).loc main_arg1)) (m ((c : Thread nD τ).loc main_arg2)) := by
  rw [(dats m 0 c).arrAt_eq_of_cover 3 _ (fun t _ => flushed_eq m c t) covered, V_main_arg0, V_main_arg1]

/-- Every weakly fair execution of the kernel's program ends with the result at the layer of the arguments,
    and the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Cert.KernelIdeal.Value.run_blocks m ρ)

end Cert.KernelIdeal.WholeArray

end
-- ==== Proof.ReferenceIsLayer.lean ====
/-
  The reference, read at an index, is the layer. Its program is a batched `dot_general` (batch axis the
  group, contraction over the input feature), the bias broadcast over the rows, an addition, and a maximum
  with a broadcast zero. Read one operation at a time the entry at `(g, r, o)` is
  `max (Σ_k x (g, r, k) · w (g, k, o) + b (g, o)) 0`, which is `layer` once the operand indices the
  reads produce are recognised as the coordinate triples and pairs of the specification.
-/
import proofs.«169411_j69140383531521_1_alg».proof.Proof.Gen.ReferenceIdeal.Read
import proofs.«169411_j69140383531521_1_alg».proof.Proof.Layer

noncomputable section

open scoped BigOperators

namespace Cert.ReferenceIdeal.IsLayer

open Cert.ReferenceIdeal Cert.ReferenceIdeal.Gen Cert.ReferenceIdeal.Read
open Idealize.ShloMosaic Idealize.ShloMosaic.ValueIdx Cert.AffineRelu

/-- The left operand of the contraction at `(i, k)`: same group and row, feature `k`. -/
theorem left_index (i : S8x4096x512.Idx) (k : Fin 512) : lidx_main_v0 i k = ix3 (i 0) (i 1) k :=
  funext fun a => Fin.ext (by match a with | ⟨0, _⟩ => rfl | ⟨1, _⟩ => rfl | ⟨2, _⟩ => rfl)

/-- The right operand of the contraction at `(i, k)`: same group, input feature `k`, same output feature. -/
theorem right_index (i : S8x4096x512.Idx) (k : Fin 512) : ridx_main_v0 i k = ix3 (i 0) k (i 2) :=
  funext fun a => Fin.ext (by match a with | ⟨0, _⟩ => rfl | ⟨1, _⟩ => rfl | ⟨2, _⟩ => rfl)

/-- The bias read through its two broadcasts: the group and the output feature, whatever the row. -/
theorem bias_index (i : S8x4096x512.Idx) : idx_main_v1 (idx_main_v2 i) = ix2 (i 0) (i 2) :=
  funext fun a => Fin.ext (by match a with | ⟨0, _⟩ => rfl | ⟨1, _⟩ => rfl)

/-- The reference's last stage is the layer of the three argument arrays. -/
theorem stage_eq_layer (x : (⟨S8x4096x512, .f32⟩ : BufTy).Contents (Elt Ideal)) (w : (⟨S8x512x512, .f32⟩ : BufTy).Contents (Elt Ideal))
    (b : (⟨S8x512, .f32⟩ : BufTy).Contents (Elt Ideal)) :
    val_main_v4 (F := Ideal) x w b = layer x w b := by
  funext i
  rw [val_main_v4_apply, val_main_v3_apply, val_main_v0_apply, val_main_v2_apply, val_main_v1_apply,
    val_main_call0_v0_apply, val_main_call0_cst_apply]
  simp only [left_index, right_index, bias_index]
  rfl

end Cert.ReferenceIdeal.IsLayer

end
-- ==== Proof.lean ====
/-
  A batch of eight affine layers with a rectifier, as a TPU kernel against its array-language reference.

  Inputs `x : [8, 4096, 512]`, weights `w : [8, 512, 512]`, bias `b : [8, 512]`. Both programs compute

      out (g, r, o) = max (Σ_{k < 512} x (g, r, k) · w (g, k, o) + b (g, o)) 0

  over the extended reals. The kernel does it block by block on an 8 × 2 grid (2048 rows of one group per
  point, the group's matrix and bias resident), narrowing its operands to bf16 before the product, which on
  the extended reals changes nothing; the reference does it with one batched contraction, two broadcasts, an
  addition and a maximum with zero. The two sums range over the same 512 products, so they are equal as
  sums in a commutative monoid, and no finiteness of the inputs is used.

  `Layer` states the function; `ReferenceIsLayer` reads the reference's operations at an index;
  `BlockEntry` reads what the kernel body stores at an index of its block; `BlockIsLayer` places the
  loaded blocks in their arrays; `WholeArray` goes from the 16 blocks to the result array. Here the two runs
  are set side by side. The kernel's idealization rewrote no operation, so there is nothing to preserve.
-/
import proofs.«169411_j69140383531521_1_alg».proof.Defs
import proofs.«169411_j69140383531521_1_alg».proof.Proof.Gen.Kernel
import proofs.«169411_j69140383531521_1_alg».proof.Proof.Gen.Kernel.Skeleton
import proofs.«169411_j69140383531521_1_alg».proof.Proof.Gen.Kernel.Launch
import proofs.«169411_j69140383531521_1_alg».proof.Proof.Gen.Kernel.Points
import proofs.«169411_j69140383531521_1_alg».proof.Proof.Gen.Kernel.Frame
import proofs.«169411_j69140383531521_1_alg».proof.Proof.Gen.KernelIdeal
import proofs.«169411_j69140383531521_1_alg».proof.Proof.Gen.KernelIdeal.Skeleton
import proofs.«169411_j69140383531521_1_alg».proof.Proof.Gen.KernelIdeal.Launch
import proofs.«169411_j69140383531521_1_alg».proof.Proof.Gen.KernelIdeal.Points
import proofs.«169411_j69140383531521_1_alg».proof.Proof.Gen.KernelIdeal.Frame
import proofs.«169411_j69140383531521_1_alg».proof.Proof.Gen.ReferenceIdeal
import proofs.«169411_j69140383531521_1_alg».proof.Proof.Gen.Pre_finite_inputs
import proofs.«169411_j69140383531521_1_alg».proof.Proof.Gen.KernelIdeal.Value
import proofs.«169411_j69140383531521_1_alg».proof.Proof.Gen.ReferenceIdeal.Run
import proofs.«169411_j69140383531521_1_alg».proof.Proof.Gen.ReferenceIdeal.Read
import proofs.«169411_j69140383531521_1_alg».proof.Proof.WholeArray
import proofs.«169411_j69140383531521_1_alg».proof.Proof.ReferenceIsLayer
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's result
    are both the layer of those arguments. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsLayer.stage_eq_layer,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
